-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Rbf.lean ====
/-
  The Gaussian (RBF) kernel matrix of two point clouds, written once, index by index, on the extended reals.

  For `x, y : 8192 × 64` the entry at `(p, q)` is
      exp (-1 · max (‖x_p‖² + ‖y_q‖² - 2 · ⟨x_p, y_q⟩) 0),
  the squared distance of row `p` of `x` and row `q` of `y` in its expanded form, clipped at zero.
  `‖x_p‖²` is the sum over the 64 coordinates of the squares, `⟨x_p, y_q⟩` the sum of the products. The three
  float literals (`-1`, `2`, `0`) stay as the words both programs print, so neither side ever evaluates them.
-/
import Idealize.ShloMosaic.PureOps.Ideal
import Idealize.ShloMosaic.Lib.ValueIdx

noncomputable section

namespace Cert.Rbf

open Idealize.ShloMosaic Idealize.ShloMosaic.ValueIdx
open scoped BigOperators

/-- A cloud of 8192 points with 64 coordinates each. -/
abbrev Pts : Type := FVec Ideal (⟨2, ![8192, 64]⟩ : Shape) .f32

/-- The squared norm of point `p`: the sum of the squares of its 64 coordinates. -/
def sqNorm (x : Pts) (p : Fin 8192) : EReal := ∑ k : Fin 64, x (ix2 p k) * x (ix2 p k)

/-- The inner product of point `p` of `x` and point `q` of `y`. -/
def inner (x y : Pts) (p q : Fin 8192) : EReal := ∑ k : Fin 64, x (ix2 p k) * y (ix2 q k)

/-- One entry from its three ingredients: `exp (-1 · max (a + b - 2 c) 0)` for the two squared norms `a`, `b`
    and the inner product `c`. -/
def entry (a b c : EReal) : EReal :=
  Ideal.exp (Ideal.ofBits .f32 0xBF800000#32 *
    max (a + b - Ideal.ofBits .f32 0x40000000#32 * c) (Ideal.ofBits .f32 0x00000000#32))

/-- The kernel matrix: `exp (-1 · max (‖x_p‖² + ‖y_q‖² - 2 ⟨x_p, y_q⟩) 0)` at `(p, q)`. -/
def rbf (x y : Pts) : FVec Ideal (⟨2, ![8192, 8192]⟩ : Shape) .f32 := fun i =>
  entry (sqNorm x (i 0)) (sqNorm y (i 1)) (inner x y (i 0) (i 1))

theorem rbf_apply (x y : Pts) (p q : Fin 8192) :
    rbf x y (ix2 p q) = entry (sqNorm x p) (sqNorm y q) (inner x y p q) := rfl

end Cert.Rbf

end
-- ==== Proof.LibKeepdims.lean ====
/-
  Layout operations of a `keepdims` row reduction, read at an index.

  A kernel that sums each row of an `[a, b]` block and keeps the reduced axis (`jnp.sum(…, axis=-1, keepdims=True)`)
  re-lays the `[a]` vector of sums as a column `[a, 1]`, and then either spreads the column over `[a, b']` or turns
  it into a row `[1, a]` first. Read at an index each of these is the operand at the obvious coordinates; the
  row forms (`[a] → [1, a]`, `[1, b] → [a, b]`) are in the library's Lib/ValueLayout.lean, the column forms are here, in
  the same style, for any extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- An `[a]` vector cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(u, i)`, the column's entry of row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

/-- The column of a vector, spread over `[a, b]`: at `(p, c)` it is the vector at `p`. -/
theorem broadcastTo_col_apply {a b : ℕ} (x : (⟨1, ![a]⟩ : Shape).Idx → α) (hs : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hs) hb (ix2 p c) = x (ix1 p) :=
  (broadcastTo_a1_ab_apply _ hb p c).trans (shapeCast_a_a1_apply x hs p 0)

/-- The column of a vector, turned into a row and spread over `[b, a]`: at `(p, c)` it is the vector at `c`. -/
theorem broadcastTo_colT_apply {a b : ℕ} (x : (⟨1, ![a]⟩ : Shape).Idx → α) (hs : (⟨1, ![a]⟩ : Shape).ShapeCasts ⟨2, ![a, 1]⟩)
    (ht : (⟨2, ![a, 1]⟩ : Shape).Transposes [1, 0] ⟨2, ![1, a]⟩)
    (hb : (⟨2, ![1, a]⟩ : Shape).Broadcasts ⟨2, ![b, a]⟩) (p : Fin b) (c : Fin a) :
    broadcastTo ⟨2, ![b, a]⟩ (transpose ⟨2, ![1, a]⟩ [1, 0] (shapeCast ⟨2, ![a, 1]⟩ x hs) ht) hb (ix2 p c) = x (ix1 c) :=
  (broadcastTo_1b_ab_apply _ hb p c).trans
    ((transpose_a1_1a_apply _ ht 0 c).trans (shapeCast_a_a1_apply x hs c 0))

end Idealize.ShloMosaic.Keepdims
-- ==== Proof.Body.lean ====
/-
  What the kernel's body computes on one pair of blocks, index by index.

  The body loads a `[1024, 64]` block `x` of the first cloud and a `[1024, 64]` block `y` of the second, and stores
  the `[1024, 1024]` tile whose entry `(p, q)` is `exp (-1 · max (‖x_p‖² + ‖y_q‖² - 2 ⟨x_p, y_q⟩) 0)`:
    * `‖x_p‖²` is a lane sum of `x · x` over the 64 coordinates, kept as a column and spread over the tile's columns;
    * `‖y_q‖²` is the same column for `y`, turned into a row and spread over the tile's rows;
    * `⟨x_p, y_q⟩` is the matrix product of `x` with the transpose of `y`, into a zero accumulator; the narrowing of
      both operands to bf16 is the identity on the extended reals.
  Each of the three is read at `(p, q)` as a plain sum over `k : Fin 64`, and the pointwise rest is `Rbf.entry`.
-/
import proofs.«168017_j65481071396156_1_alg».proof.Proof.Gen.KernelIdeal.Skeleton
import proofs.«168017_j65481071396156_1_alg».proof.Proof.Rbf
import proofs.«168017_j65481071396156_1_alg».proof.Proof.LibKeepdims
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## A row's lane sum -/

/-- The lane sum of a `[1024, 64]` block at row `p` is the sum of the row's 64 entries. -/
theorem rowSum_apply (v : FVec Ideal S1024x64 .f32) (hr : S1024x64.Reduces [1] S1024) (hφ : FKind.Formats .f32)
    (hacc : (0x00000000#32 : BitVec 32) = FKind.add.neutral .f32 hφ) (p : Fin 1024) :
    multiReduction (F := Ideal) .add [1] S1024 v 0x00000000#32 hr hφ hacc (ix1 p) = ∑ k : Fin 64, v (ix2 p k) := by
  refine (Ideal.multiReduction_add_single v 0x00000000#32 hr hφ hacc (ix1 p)).trans ?_
  refine Finset.sum_congr rfl fun k _ => congrArg v (funext fun a => Fin.ext ?_)
  match a with
  | ⟨0, _⟩ => rfl
  | ⟨1, _⟩ => rfl

/-- The row sums kept as a column and spread over the tile's columns: at `(p, q)` the sum of row `p`. -/
theorem colSum_apply (v : FVec Ideal S1024x64 .f32) (hr : S1024x64.Reduces [1] S1024) (hφ : FKind.Formats .f32)
    (hacc : (0x00000000#32 : BitVec 32) = FKind.add.neutral .f32 hφ) (hs : S1024.ShapeCasts S1024x1)
    (hb : S1024x1.Broadcasts S1024x1024) (p q : Fin 1024) :
    broadcastTo S1024x1024 (shapeCast S1024x1 (multiReduction (F := Ideal) .add [1] S1024 v 0x00000000#32 hr hφ hacc) hs) hb (ix2 p q)
      = ∑ k : Fin 64, v (ix2 p k) :=
  (Keepdims.broadcastTo_col_apply _ hs hb p q).trans (rowSum_apply v hr hφ hacc p)

/-- The row sums kept as a column, turned into a row and spread over the tile's rows: at `(p, q)` the sum of row `q`. -/
theorem rowSumT_apply (v : FVec Ideal S1024x64 .f32) (hr : S1024x64.Reduces [1] S1024) (hφ : FKind.Formats .f32)
    (hacc : (0x00000000#32 : BitVec 32) = FKind.add.neutral .f32 hφ) (hs : S1024.ShapeCasts S1024x1)
    (ht : S1024x1.Transposes [1, 0] S1x1024) (hb : S1x1024.Broadcasts S1024x1024) (p q : Fin 1024) :
    broadcastTo S1024x1024 (transpose S1x1024 [1, 0]
        (shapeCast S1024x1 (multiReduction (F := Ideal) .add [1] S1024 v 0x00000000#32 hr hφ hacc) hs) ht) hb (ix2 p q)
      = ∑ k : Fin 64, v (ix2 q k) :=
  (Keepdims.broadcastTo_colT_apply _ hs ht hb p q).trans (rowSum_apply v hr hφ hacc q)

/-! ## The matrix product of `x` with the transpose of `y` -/

theorem lhs_gram_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_gram_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_gram_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_gram_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of `x` with the transposed `y`, into the zero accumulator, at `(p, q)`: the inner product of row `p`
    of `x` and row `q` of `y`. The narrowing of the operands changes nothing on the extended reals. -/
theorem gram_apply (x y : FVec Ideal S1024x64 .f32) (hlt : FTy.bits .bf16 < FTy.bits .f32)
    (ht : S1024x64.Transposes [1, 0] S64x1024) (p q : Fin 1024) :
    matmul (F := Ideal) dot_S1024x64_S64x1024_S1024x1024_1_0_0_1_n_n none (truncf .bf16 x hlt)
        (transpose S64x1024 [1, 0] (truncf .bf16 y hlt) ht) (constant S1024x1024 .f32 0x00000000#32) (ix2 p q)
      = ∑ k : Fin 64, x (ix2 p k) * y (ix2 q k) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q) ((ValueIdx.contrEquiv1 dot_S1024x64_S64x1024_S1024x1024_1_0_0_1_n_n 64 rfl rfl).symm k) = ix2 p k := funext fun a => Fin.ext (by
    match a with
    | ⟨0, _⟩ => exact lhs_gram_0 _ _
    | ⟨1, _⟩ => exact (lhs_gram_1 _ _).trans hk)
  have er : dot_S1024x64_S64x1024_S1024x1024_1_0_0_1_n_n.rhsIdx (ix2 p q) ((ValueIdx.contrEquiv1 dot_S1024x64_S64x1024_S1024x1024_1_0_0_1_n_n 64 rfl rfl).symm k) = ix2 k q := funext fun a => Fin.ext (by
    match a with
    | ⟨0, _⟩ => exact (rhs_gram_0 _ _).trans hk
    | ⟨1, _⟩ => exact rhs_gram_1 _ _)
  rw [el, er, transpose_ix2_apply]
  rfl

/-! ## The stored tile -/

/-- THE BODY'S PAYLOAD at `(p, q)`: the entry of the squared norms of row `p` of `x` and row `q` of `y` and of their
    inner product. -/
theorem pay_apply (x y : Vec Ideal S1024x64 .f32) (p q : Fin 1024) :
    k0_pay1 (F := Ideal) x y (ix2 p q)
      = Cert.Rbf.entry (∑ k : Fin 64, x (ix2 p k) * x (ix2 p k)) (∑ k : Fin 64, y (ix2 q k) * y (ix2 q k))
          (∑ k : Fin 64, x (ix2 p k) * y (ix2 q k)) := by
  unfold k0_pay1
  show Cert.Rbf.entry _ _ _ = _
  exact congr (congr (congrArg Cert.Rbf.entry
      (colSum_apply (mulf x x) _ _ _ _ _ p q)) (rowSumT_apply (mulf y y) _ _ _ _ _ _ p q)) (gram_apply x y _ _ p q)

end Cert.KernelIdeal.Body

end
-- ==== Proof.KernelValue.lean ====
/-
  The kernel's result array after the run is the kernel matrix `Rbf.rbf` of its two arguments.

  The grid is 8 × 8. Point `(r, s)` loads rows `1024 r … 1024 r + 1023` of the first cloud and rows
  `1024 s … 1024 s + 1023` of the second, and writes back the `[1024, 1024]` tile of the result at block `(r, s)`.
  By `Body.pay_apply` the tile's entry `(p, q)` is the entry of point `1024 r + p` of the first cloud and point
  `1024 s + q` of the second, which is `Rbf.rbf` at `(1024 r + p, 1024 s + q)`: the tile IS block `(r, s)` of `Rbf.rbf`.
  The 64 tiles cover the `[8192, 8192]` array (index `(a, b)` lies in the tile of point `(a / 1024, b / 1024)`), so the
  array ends holding `Rbf.rbf` everywhere.
-/
import proofs.«168017_j65481071396156_1_alg».proof.Proof.Gen.KernelIdeal.Value
import proofs.«168017_j65481071396156_1_alg».proof.Proof.Body

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- One entry of a tile: if row `p` of the first loaded block is row `P` of the first cloud and row `q` of the second
    loaded block is row `Q` of the second cloud, the body's payload at `(p, q)` is the kernel matrix at `(P, Q)`. -/
theorem tile_entry (X Y : Cert.Rbf.Pts) (x y : Vec Ideal S1024x64 .f32) (P Q : Fin 8192) (p q : Fin 1024)
    (hx : ∀ k : Fin 64, x (ix2 p k) = X (ix2 P k)) (hy : ∀ k : Fin 64, y (ix2 q k) = Y (ix2 Q k)) :
    k0_pay1 (F := Ideal) x y (ix2 p q) = Cert.Rbf.rbf X Y (ix2 P Q) := by
  rw [Body.pay_apply, Cert.Rbf.rbf_apply]
  unfold Cert.Rbf.sqNorm Cert.Rbf.inner
  simp only [hx, hy]

/-- The printed index maps over the 64 grid points: the first cloud's block moves with the tile's block row, the second
    cloud's with the tile's block column, neither is split along the 64 coordinates, and the tile's block indices are
    below 8. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) < 8 ∧ win0_2.index t (1 : Fin 2) < 8 :=
  (by decide +kernel : ∀ t : Fin grid0.N, _)

/-- Every block `(r, s)` of the 8 × 8 tiling is some grid point's. -/
theorem block_onto : ∀ (r s : Fin 8), ∃ t : Fin cfg0.N, win0_2.index t = ![r.val, s.val] :=
  (by decide +kernel : ∀ (r s : Fin 8), ∃ t : Fin grid0.N, win0_2.index t = ![r.val, s.val])

/-- WHAT POINT `t` WRITES BACK is block `t` of the kernel matrix of the two clouds as the region finds them. -/
theorem tile_eq (c : Dev nD) (t : Fin cfg0.N) :
    (Gen.dats m 0 c).flushed 2 t
      = ((cfg0.win 2).blk t).view.read (Elt Ideal) (Cert.Rbf.rbf (V m c main_arg0) (V m c main_arg1)) := by
  rw [Value.flushed2]
  unfold out0_2
  rw [View.canon_unit_zero zero_off]
  simp only [View.ld_unit_zero (S := S1024x64) zero_off]
  obtain ⟨e0, e1, e2, e3, b0, b1⟩ := block_indices t
  funext j
  obtain ⟨p, q, rfl⟩ : ∃ (p q : Fin 1024), j = ix2 p q := ⟨j 0, j 1, eq_ix2 j⟩
  have hp : p.val < 1024 := p.isLt
  have hq : q.val < 1024 := q.isLt
  show k0_pay1 (F := Ideal) (iblk m c 0 t) (iblk m c 1 t) (ix2 p q)
    = Cert.Rbf.rbf (V m c main_arg0) (V m c main_arg1) (((cfg0.win 2).blk t).view.emb (ix2 p q))
  have hemb : ((cfg0.win 2).blk t).view.emb (ix2 p q)
      = ix2 (⟨win0_2.index t (0 : Fin 2) * 1024 + p.val, by omega⟩ : Fin 8192)
          (⟨win0_2.index t (1 : Fin 2) * 1024 + q.val, by omega⟩ : Fin 8192) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = win0_2.index t (1 : Fin 2) * 1024 + q.val; omega
  rw [hemb]
  refine tile_entry (V m c main_arg0) (V m c main_arg1) (iblk m c 0 t) (iblk m c 1 t) _ _ p q (fun k => ?_) (fun k => ?_)
  · show V m c main_arg0 (((cfg0.win 0).blk t).view.emb (ix2 p k)) = _
    refine congrArg (V m c main_arg0) (funext fun a => Fin.ext ?_)
    have hk : k.val < 64 := k.isLt
    match a with
    | ⟨0, _⟩ => show win0_0.index t (0 : Fin 2) * 1024 + 1 * p.val = win0_2.index t (0 : Fin 2) * 1024 + p.val; omega
    | ⟨1, _⟩ => show win0_0.index t (1 : Fin 2) * 64 + 1 * k.val = k.val; omega
  · show V m c main_arg1 (((cfg0.win 1).blk t).view.emb (ix2 q k)) = _
    refine congrArg (V m c main_arg1) (funext fun a => Fin.ext ?_)
    have hk : k.val < 64 := k.isLt
    match a with
    | ⟨0, _⟩ => show win0_1.index t (0 : Fin 2) * 1024 + 1 * q.val = win0_2.index t (1 : Fin 2) * 1024 + q.val; omega
    | ⟨1, _⟩ => show win0_1.index t (1 : Fin 2) * 64 + 1 * k.val = k.val; omega

/-- An index of the result array is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The 64 tiles cover the result array: `(a, b)` lies in the tile of block `(a / 1024, b / 1024)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run is the kernel matrix of the two argument arrays. -/
theorem result_eq (c : Dev nD) :
    (Gen.dats m 0 c).arrAt 2 cfg0.N
      = Cert.Rbf.rbf (m ((c : Thread nD τ).loc main_arg0)) (m ((c : Thread nD τ).loc main_arg1)) :=
  (Gen.dats m 0 c).arrAt_eq_of_cover 2 (Cert.Rbf.rbf (V m c main_arg0) (V m c main_arg1))
    (fun t _ => tile_eq m c t) tiles_cover

/-- The run, read: the result array at the kernel matrix of the arguments, the arguments unchanged. -/
theorem run : θ_run defs (onTc (τ := τ) (main (F := Ideal))) ⟨m, fun _ => 0, ρ⟩ fun r => ∀ c : Dev nD,
      r.2.mem ((c : Thread nD τ).loc main_v0)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Whole

end
-- ==== Proof.RefValue.lean ====
/-
  The reference's result, read index by index, is the kernel matrix `Rbf.rbf` of its two arguments.

  The reference squares each cloud, sums each row (a host sum: the zero it starts from plus the row's 64 squares),
  takes the matrix of inner products by one contraction over the 64 coordinates, spreads the two vectors of squared
  norms over rows and columns, and applies `exp (-1 · max (· - 2 ·) 0)` entrywise. Every operation is read at an
  index; the composed index maps are the rows `(i 0, k)` and `(i 1, k)`.
-/
import proofs.«168017_j65481071396156_1_alg».proof.Proof.Gen.ReferenceIdeal.Read
import proofs.«168017_j65481071396156_1_alg».proof.Proof.Rbf

noncomputable section

namespace Cert.ReferenceIdeal.RefValue

open Cert.ReferenceIdeal Cert.ReferenceIdeal.Gen Cert.ReferenceIdeal.Read Idealize.ShloMosaic Idealize.ShloMosaic.ValueIdx
open scoped BigOperators

/-- Row `i 0` of the first cloud, as the first squared norm's reduction reaches it through the two broadcasts. -/
theorem idx_sq0 (i : S8192x8192.Idx) (k : Fin 64) : idx_main_v1 (idx_main_v5 (idx_main_v7 i)) k = ix2 (i 0) k :=
  funext fun a => Fin.ext (by match a with | ⟨0, _⟩ => rfl | ⟨1, _⟩ => rfl)

/-- Row `i 1` of the second cloud, as the second squared norm's reduction reaches it through the two broadcasts. -/
theorem idx_sq1 (i : S8192x8192.Idx) (k : Fin 64) : idx_main_v3 (idx_main_v6 (idx_main_v8 i)) k = ix2 (i 1) k :=
  funext fun a => Fin.ext (by match a with | ⟨0, _⟩ => rfl | ⟨1, _⟩ => rfl)

/-- The contraction's left operand index is `(i 0, k)`. -/
theorem idx_dotl (i : S8192x8192.Idx) (k : Fin 64) : lidx_main_v4 i k = ix2 (i 0) k :=
  funext fun a => Fin.ext (by match a with | ⟨0, _⟩ => rfl | ⟨1, _⟩ => rfl)

/-- The contraction's right operand index is `(i 1, k)`. -/
theorem idx_dotr (i : S8192x8192.Idx) (k : Fin 64) : ridx_main_v4 i k = ix2 (i 1) k :=
  funext fun a => Fin.ext (by match a with | ⟨0, _⟩ => rfl | ⟨1, _⟩ => rfl)

/-- THE REFERENCE'S RESULT is the kernel matrix of its arguments. -/
theorem result_eq (x y : (⟨S8192x64, .f32⟩ : BufTy).Contents (Elt Ideal)) :
    val_main_v17 (F := Ideal) x y = Cert.Rbf.rbf x y := by
  funext i
  rw [val_main_v17_apply, val_main_v16_apply, val_main_v15_apply, val_main_cst_3_apply, val_main_v14_apply,
    val_main_v13_apply, val_main_cst_2_apply, val_main_v12_apply, val_main_v9_apply, val_main_v7_apply, val_main_v5_apply,
    val_main_v1_apply, val_main_cst_apply, val_main_v8_apply, val_main_v6_apply, val_main_v3_apply, val_main_cst_0_apply,
    val_main_v11_apply, val_main_v10_apply, val_main_cst_1_apply, val_main_v4_apply]
  simp only [val_main_v0_apply, val_main_v2_apply, idx_sq0, idx_sq1, idx_dotl, idx_dotr, Ideal.ofBits_def, Ideal.mulf_def,
    Ideal.addf_def, Ideal.subf_def, Ideal.maximumf_def, Ideal.hostUnary_exp_def, Ideal.ofBits_zero_f32, zero_add]
  simp only [Cert.Rbf.rbf, Cert.Rbf.entry, Cert.Rbf.sqNorm, Cert.Rbf.inner, Ideal.ofBits_zero_f32]
  rfl

end Cert.ReferenceIdeal.RefValue

end
-- ==== Proof.lean ====
/-
  The Gaussian (RBF) kernel matrix of two clouds of 8192 points in 64 coordinates: a tiled kernel against its plain
  reference, equal on the extended reals.

  Both programs compute, at `(p, q)`, `exp (-1 · max (‖x_p‖² + ‖y_q‖² - 2 ⟨x_p, y_q⟩) 0)` with the same three float
  words, in the same order of the pointwise operations. They differ only in how the three sums are taken: the kernel
  sums lanes of a `[1024, 64]` block and multiplies a block by a transposed block (operands narrowed to bf16, which is
  the identity here), tile by tile over an 8 × 8 grid; the reference reduces and contracts the whole arrays. On the
  extended reals each is the same finite sum over the 64 coordinates, so no algebraic law beyond reading the sums at an
  index is needed, and the finiteness of the inputs is never used.

    * `Rbf`           the kernel matrix as one function of the two clouds;
    * `RefValue`      the reference's result is that function;
    * `Body`          the kernel body's stored tile, entry by entry;
    * `KernelValue`   the tiles are the blocks of that function and cover the result array.

  The three frames are the generated ones (the reference's is its generated run with the result dropped); the
  idealization rewrote nothing, so `preserves` is trivial.
-/
import proofs.«168017_j65481071396156_1_alg».proof.Defs
import proofs.«168017_j65481071396156_1_alg».proof.Proof.Gen.Kernel
import proofs.«168017_j65481071396156_1_alg».proof.Proof.Gen.Kernel.Frame
import proofs.«168017_j65481071396156_1_alg».proof.Proof.Gen.KernelIdeal
import proofs.«168017_j65481071396156_1_alg».proof.Proof.Gen.KernelIdeal.Frame
import proofs.«168017_j65481071396156_1_alg».proof.Proof.Gen.KernelIdeal.Value
import proofs.«168017_j65481071396156_1_alg».proof.Proof.Gen.ReferenceIdeal
import proofs.«168017_j65481071396156_1_alg».proof.Proof.Gen.ReferenceIdeal.Run
import proofs.«168017_j65481071396156_1_alg».proof.Proof.Gen.ReferenceIdeal.Read
import proofs.«168017_j65481071396156_1_alg».proof.Proof.Gen.Pre_finite_inputs
import proofs.«168017_j65481071396156_1_alg».proof.Proof.KernelValue
import proofs.«168017_j65481071396156_1_alg».proof.Proof.RefValue
import Idealize.ShloMosaic.Adequacy
import Idealize.ShloMosaic.Init

noncomputable section

namespace Cert.Proof

open Idealize.ShloMosaic Idealize.SL.Sem

/-- The kernel's result array ends at the kernel matrix of its arguments (`KernelValue`), the reference's at its
    composed term, which is the same matrix (`RefValue`) of arguments that agree. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
